-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S50000x256 : Shape := ⟨2, ![50000, 256]⟩
abbrev S2x800000 : Shape := ⟨2, ![2, 800000]⟩
abbrev S512x128 : Shape := ⟨2, ![512, 128]⟩
abbrev S128 : Shape := ⟨1, ![128]⟩
abbrev S256x128 : Shape := ⟨2, ![256, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S256x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x512 .f32) (main_arg1 : FVec F S50000x256 .f32) (main_arg2 : IVec S2x800000 32) (main_arg3 : FVec F S512x128 .f32) (main_arg4 : FVec F S128 .f32) (main_arg5 : FVec F S256x128 .f32) (main_arg6 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x512 : Shape := ⟨2, ![50000, 512]⟩
abbrev S50000x256 : Shape := ⟨2, ![50000, 256]⟩
abbrev S2x800000 : Shape := ⟨2, ![2, 800000]⟩
abbrev S512x128 : Shape := ⟨2, ![512, 128]⟩
abbrev S128 : Shape := ⟨1, ![128]⟩
abbrev S256x128 : Shape := ⟨2, ![256, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S5000x512 : Shape := ⟨2, ![5000, 512]⟩
abbrev S5000x256 : Shape := ⟨2, ![5000, 256]⟩
abbrev S5000x128 : Shape := ⟨2, ![5000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 93
  | .vmem => 18
  | .smem => 0
  | _ => 0

abbrev bufTy : (tb : Table) → Fin (tcTables nBuf tb) → BufTy
  | .hbm, ⟨0, _⟩ => ⟨S50000x512, .f32⟩
  | .hbm, ⟨1, _⟩ => ⟨S50000x256, .f32⟩
  | .hbm, ⟨2, _⟩ => ⟨S2x800000, .i32⟩
  | .hbm, ⟨3, _⟩ => ⟨S512x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S50000x512, .bf16⟩
  | .hbm, ⟨15, _⟩ => ⟨S50000x256, .bf16⟩
  | .hbm, ⟨16, _⟩ => ⟨S512x128, .bf16⟩
  | .hbm, ⟨17, _⟩ => ⟨S256x128, .bf16⟩
  | .hbm, ⟨18, _⟩ => ⟨S50000x128, .f32⟩
  | .hbm, ⟨19, _⟩ => ⟨S50000x128, .f32⟩
  | .hbm, ⟨20, _⟩ => ⟨S_, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S_, .f32⟩
  | .hbm, ⟨31, _⟩ => ⟨S850000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .i1⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000, .f32⟩
  | .hbm, ⟨59, _⟩ => ⟨S850000, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x1, .f32⟩
  | .hbm, ⟨70, _⟩ => ⟨S850000x128, .f32⟩
  | .hbm, ⟨71, _⟩ => ⟨S850000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S850000x1, .i32⟩
  | .hbm, ⟨91, _⟩ => ⟨S50000x128, .f32⟩
  | .hbm, ⟨92, _⟩ => ⟨S50000x128, .f32⟩
  | .local _ .vmem, ⟨0, _⟩ => ⟨S5000x512, .bf16⟩
  | .local _ .vmem, ⟨1, _⟩ => ⟨S5000x512, .bf16⟩
  | .local _ .vmem, ⟨2, _⟩ => ⟨S512x128, .bf16⟩
  | .local _ .vmem, ⟨3, _⟩ => ⟨S5000x256, .bf16⟩
  | .local _ .vmem, ⟨4, _⟩ => ⟨S5000x256, .bf16⟩
  | .local _ .vmem, ⟨5, _⟩ => ⟨S256x128, .bf16⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_cst : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x128_S5000x128_0_0 : ∀ a, (![0, 0] : Fin 2 → Nat) a + S5000x128.size a ≤ S5000x128.size a
  h_S5000x128 : 0 < S5000x128.numel
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  dot_S5000x512_S512x128_S5000x128_1_0_0_1_n_n_wf : DotDims.WF S5000x512 S512x128 S5000x128 [1] [0] [0] [1] [] []
  dot_S5000x256_S256x128_S5000x128_1_0_0_1_n_n_wf : DotDims.WF S5000x256 S256x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .bf16 = 32 ∨ (Rect.block (s := S50000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .bf16 = 32 ∨ (Rect.block (s := S50000x256) S5000x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v7) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v62) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x512 : Shape := ⟨2, ![50000, 512]⟩
abbrev S50000x256 : Shape := ⟨2, ![50000, 256]⟩
abbrev S2x800000 : Shape := ⟨2, ![2, 800000]⟩
abbrev S512x128 : Shape := ⟨2, ![512, 128]⟩
abbrev S128 : Shape := ⟨1, ![128]⟩
abbrev S256x128 : Shape := ⟨2, ![256, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 156
  | .vmem => 0
  | .smem => 0
  | _ => 0

abbrev hbmTy0_0 (i : Nat) : BufTy := match i % 128 with
  | 0 => ⟨S50000x512, .f32⟩
  | 1 => ⟨S50000x256, .f32⟩
  | 2 => ⟨S2x800000, .i32⟩
  | 3 => ⟨S512x128, .f32⟩
  | 4 => ⟨S128, .f32⟩
  | 5 => ⟨S256x128, .f32⟩
  | 6 => ⟨S128, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S50000x128, .f32⟩
  | 15 => ⟨S_, .f32⟩
  | 16 => ⟨S50000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S_, .f32⟩
  | 26 => ⟨S850000, .f32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x1, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S_, .f32⟩
  | 79 => ⟨S50000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S_, .f32⟩
  | 89 => ⟨S850000, .f32⟩
  | 90 => ⟨S50000, .f32⟩
  | 91 => ⟨S_, .f32⟩
  | 92 => ⟨S50000, .f32⟩
  | 93 => ⟨S50000, .i1⟩
  | 94 => ⟨S50000, .f32⟩
  | 95 => ⟨S_, .f32⟩
  | 96 => ⟨S_, .f32⟩
  | 97 => ⟨S50000, .f32⟩
  | 98 => ⟨S50000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000, .f32⟩
  | 117 => ⟨S850000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000x128, .f32⟩
  | 127 => ⟨S850000x1, .f32⟩
  | _ => ⟨S50000x512, .f32⟩

abbrev hbmTy0_1 (i : Nat) : BufTy := match i % 128 with
  | 0 => ⟨S850000x128, .f32⟩
  | 1 => ⟨S850000x128, .f32⟩
  | 2 => ⟨S_, .f32⟩
  | 3 => ⟨S50000x128, .f32⟩
  | 4 => ⟨S850000x1, .i32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S50000x128, .f32⟩
  | 13 => ⟨S_, .f32⟩
  | 14 => ⟨S50000, .f32⟩
  | 15 => ⟨S_, .f32⟩
  | 16 => ⟨S50000, .f32⟩
  | 17 => ⟨S50000, .f32⟩
  | 18 => ⟨S50000x1, .f32⟩
  | 19 => ⟨S50000x128, .f32⟩
  | 20 => ⟨S50000x128, .f32⟩
  | 21 => ⟨S50000x128, .f32⟩
  | 22 => ⟨S_, .f32⟩
  | 23 => ⟨S50000, .f32⟩
  | 24 => ⟨S50000x1, .f32⟩
  | 25 => ⟨S50000x1, .f32⟩
  | 26 => ⟨S50000x128, .f32⟩
  | 27 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call1_cst : Ref sig .tc := ⟨.hbm, 74, rfl⟩
abbrev main_call1_v0 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_c_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_cst_15 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_16 : Ref sig .tc := ⟨.hbm, 95, rfl⟩
abbrev main_call2_v0 : Ref sig .tc := ⟨.hbm, 96, rfl⟩
abbrev main_call2_v1 : Ref sig .tc := ⟨.hbm, 97, rfl⟩
abbrev main_v66 : Ref sig .tc := ⟨.hbm, 98, rfl⟩
abbrev main_c_17 : Ref sig .tc := ⟨.hbm, 99, rfl⟩
abbrev main_v67 : Ref sig .tc := ⟨.hbm, 100, rfl⟩
abbrev main_v68 : Ref sig .tc := ⟨.hbm, 101, rfl⟩
abbrev main_c_18 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_19 : Ref sig .tc := ⟨.hbm, 108, rfl⟩
abbrev main_v74 : Ref sig .tc := ⟨.hbm, 109, rfl⟩
abbrev main_v75 : Ref sig .tc := ⟨.hbm, 110, rfl⟩
abbrev main_c_20 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_21 : Ref sig .tc := ⟨.hbm, 118, rfl⟩
abbrev main_v82 : Ref sig .tc := ⟨.hbm, 119, rfl⟩
abbrev main_v83 : Ref sig .tc := ⟨.hbm, 120, rfl⟩
abbrev main_c_22 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_23 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_call3_cst : Ref sig .tc := ⟨.hbm, 137, rfl⟩
abbrev main_call3_v0 : Ref sig .tc := ⟨.hbm, 138, rfl⟩
abbrev main_v98 : Ref sig .tc := ⟨.hbm, 139, rfl⟩
abbrev main_v99 : Ref sig .tc := ⟨.hbm, 140, rfl⟩
abbrev main_call4_cst : Ref sig .tc := ⟨.hbm, 141, rfl⟩
abbrev main_call4_v0 : Ref sig .tc := ⟨.hbm, 142, rfl⟩
abbrev main_call4_cst_0 : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_v5 : Ref sig .tc := ⟨.hbm, 148, rfl⟩
abbrev main_call4_v6 : Ref sig .tc := ⟨.hbm, 149, rfl⟩
abbrev main_call4_cst_1 : Ref sig .tc := ⟨.hbm, 150, rfl⟩
abbrev main_call4_v7 : Ref sig .tc := ⟨.hbm, 151, rfl⟩
abbrev main_call4_v8 : Ref sig .tc := ⟨.hbm, 152, rfl⟩
abbrev main_call4_v9 : Ref sig .tc := ⟨.hbm, 153, rfl⟩
abbrev main_call4_v10 : Ref sig .tc := ⟨.hbm, 154, rfl⟩
abbrev main_v100 : Ref sig .tc := ⟨.hbm, 155, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x512_S512x128_S50000x128_1_0_0_1_n_n_wf : DotDims.WF S50000x512 S512x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x256_S256x128_S50000x128_1_0_0_1_n_n_wf : DotDims.WF S50000x256 S256x128 S50000x128 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Edges.lean ====
/-
  The edge stage both programs share, as one function of a projected feature array and the edge list.

  The edge list `e` has a row of sources and a row of destinations; a self-loop is appended for every node
  (`src`, `dst`). A node's degree is the number of edges that end in it (`deg`: ones scattered at the destinations,
  a negative index first wrapped by the node count, `wrap`), its weight the inverse square root of the degree where
  the degree is positive and zero elsewhere (`dinv`), an edge's weight the product of its two ends' weights (`norm`).
  `push xw e` gathers the rows of `xw` at the sources, scales each by its edge's weight, and adds them up at the
  destinations. Nothing here is ever opened: the two programs apply this same function, and the proof only needs
  that equal arguments give equal results.
-/
import proofs.«169199_j36335423324414_1_alg».proof.KernelIdeal

noncomputable section

namespace Cert.Edges

open Idealize.ShloMosaic Cert.KernelIdeal Cert.KernelIdeal.Facts₀

variable {F : FTy → Type} [FloatOps F] [Cert.KernelIdeal.Facts]

/-- The edge list's row `r` followed by one self-loop per node. -/
def ends (r : Nat) (h : S2x800000.Slices ![r, 0] S1x800000) (e : (⟨S2x800000, .i32⟩ : BufTy).Contents (Elt F)) :
    (⟨S850000, .i32⟩ : BufTy).Contents (Elt F) :=
  concatenate S850000 0 [⟨S800000, (shapeCast _ (extractStridedSlice S1x800000 ![r, 0] e h) shapeCasts_S1x800000_S800000)⟩, ⟨S50000, (iotaInDim S50000 32 0)⟩] concatenates_S800000_S50000_S850000_d0

/-- Sources, self-loops appended. -/
def src (e : (⟨S2x800000, .i32⟩ : BufTy).Contents (Elt F)) : (⟨S850000, .i32⟩ : BufTy).Contents (Elt F) :=
  ends 0 slices_S2x800000_S1x800000_0_0 e
/-- Destinations, self-loops appended. -/
def dst (e : (⟨S2x800000, .i32⟩ : BufTy).Contents (Elt F)) : (⟨S850000, .i32⟩ : BufTy).Contents (Elt F) :=
  ends 1 slices_S2x800000_S1x800000_1_0 e

/-- A negative node index counts from the end: add the node count to it. As a column of start indices. -/
def wrap (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- In-degrees, self-loops included. -/
def deg (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (wrap (dst e)) (broadcastInDim S850000 ![] bcast_S_S850000 (constant S_ .f32 0x3F800000#32))

/-- The inverse square root of a positive degree, zero elsewhere. -/
def dinv (e : (⟨S2x800000, .i32⟩ : BufTy).Contents (Elt F)) : (⟨S50000, .f32⟩ : BufTy).Contents (Elt F) :=
  select (cmpf .ogt (deg e) (broadcastInDim S50000 ![] bcast_S_S50000 (constant S_ .f32 0x00000000#32))) (Host.rsqrt (deg e))
    (broadcastInDim S50000 ![] bcast_S_S50000 (id (constant S_ .f32 0x00000000#32)))

/-- An edge's weight: the product of its two ends' weights. -/
def norm (e : (⟨S2x800000, .i32⟩ : BufTy).Contents (Elt F)) : (⟨S850000, .f32⟩ : BufTy).Contents (Elt F) :=
  mulf (Host.gather gather_S50000_S850000x1_S850000_n_0_n_n_0_1_1 (dinv e) (wrap (src e)))
    (Host.gather gather_S50000_S850000x1_S850000_n_0_n_n_0_1_1 (dinv e) (wrap (dst e)))

/-- Rows of `xw` gathered at the sources, scaled by the edge weights, summed at the destinations. -/
def push (xw : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 (dst e))
    (mulf (Host.gather gather_S50000x128_S850000x1_S850000x128_1_0_n_n_0_1_1128 xw (wrap (src e)))
      (broadcastInDim S850000x128 ![0, 1] bcast_S850000x1_S850000x128_0_1 (broadcastInDim S850000x1 ![0] bcast_S850000_S850000x1_0 (norm e))))

end Cert.Edges

end
-- ==== Proof.KernelHost.lean ====
/-
  What the kernel program's host operations leave in the buffers the two kernel regions read.

  Before the first region the edge list is cut into its two rows, each extended by the self-loops, and the four
  float arguments change format (the identity on extended reals). Between the regions the degrees, the node and edge
  weights and the two pushes along the edges are computed: each pushed array is the shared edge stage
  `Cert.Edges.push` applied to what the first region left in its output array. The contents at each boundary are a
  fold through @main; a buffer nobody writes in a stretch is read back through it.
-/
import proofs.«169199_j36335423324414_1_alg».proof.Proof.Gen.KernelIdeal.Frame
import proofs.«169199_j36335423324414_1_alg».proof.Proof.Edges
import Idealize.ShloMosaic.Lib.StableHlo.Run

set_option maxRecDepth 16384

noncomputable section

namespace Cert.KernelHost

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Before the first region -/

/-- The sources with the self-loops, as the first region finds them. -/
theorem W1_v3 (c : Dev nD) : W1 m ρ c (Proc.devRef .tc main_v3) = Cert.Edges.src (m ((c : Thread nD τ).loc main_arg2)) := by
  show StableHlo.after hostOps0 (W0 m ρ c) (Proc.devRef .tc main_v3) = _
  after_results
  rfl

/-- The destinations with the self-loops. -/
theorem W1_v6 (c : Dev nD) : W1 m ρ c (Proc.devRef .tc main_v6) = Cert.Edges.dst (m ((c : Thread nD τ).loc main_arg2)) := by
  show StableHlo.after hostOps0 (W0 m ρ c) (Proc.devRef .tc main_v6) = _
  after_results
  rfl

/-- The first modality's features in the narrower format. -/
theorem W1_v7 (c : Dev nD) : W1 m ρ c (Proc.devRef .tc main_v7) = truncf .bf16 (m ((c : Thread nD τ).loc main_arg0)) Facts₀.bitsLt_bf16_f32 := by
  show StableHlo.after hostOps0 (W0 m ρ c) (Proc.devRef .tc main_v7) = _
  after_results

theorem W1_v8 (c : Dev nD) : W1 m ρ c (Proc.devRef .tc main_v8) = truncf .bf16 (m ((c : Thread nD τ).loc main_arg1)) Facts₀.bitsLt_bf16_f32 := by
  show StableHlo.after hostOps0 (W0 m ρ c) (Proc.devRef .tc main_v8) = _
  after_results

theorem W1_v9 (c : Dev nD) : W1 m ρ c (Proc.devRef .tc main_v9) = truncf .bf16 (m ((c : Thread nD τ).loc main_arg3)) Facts₀.bitsLt_bf16_f32 := by
  show StableHlo.after hostOps0 (W0 m ρ c) (Proc.devRef .tc main_v9) = _
  after_results

theorem W1_v10 (c : Dev nD) : W1 m ρ c (Proc.devRef .tc main_v10) = truncf .bf16 (m ((c : Thread nD τ).loc main_arg5)) Facts₀.bitsLt_bf16_f32 := by
  show StableHlo.after hostOps0 (W0 m ρ c) (Proc.devRef .tc main_v10) = _
  after_results

/-! ## Across the first region: the index rows are not its arrays -/

theorem W2_v3 (c : Dev nD) : W2 m ρ c (Proc.devRef .tc main_v3) = Cert.Edges.src (m ((c : Thread nD τ).loc main_arg2)) :=
  (W2_of_ne m ρ c main_v3 (by decide)).trans (W1_v3 m ρ c)

theorem W2_v6 (c : Dev nD) : W2 m ρ c (Proc.devRef .tc main_v6) = Cert.Edges.dst (m ((c : Thread nD τ).loc main_arg2)) :=
  (W2_of_ne m ρ c main_v6 (by decide)).trans (W1_v6 m ρ c)

/-! ## Between the regions -/

/-- The first modality's projection pushed along the edges, as the second region finds it: the shared edge stage of what
    the first region left in its first output array. -/
theorem W5_v62 (c : Dev nD) : W5 m ρ c (Proc.devRef .tc main_v62)
    = Cert.Edges.push (W2 m ρ c (Proc.devRef .tc main_v11_0)) (m ((c : Thread nD τ).loc main_arg2)) := by
  show StableHlo.after hostOps1_2 (StableHlo.after hostOps1_1 (StableHlo.after hostOps1 (W2 m ρ c))) (Proc.devRef .tc main_v62) = _
  after_results_simp
  rw [W2_v3 m ρ c, W2_v6 m ρ c]
  rfl

/-- The second modality's, likewise, from the first region's second output array. -/
theorem W5_v65 (c : Dev nD) : W5 m ρ c (Proc.devRef .tc main_v65)
    = Cert.Edges.push (W2 m ρ c (Proc.devRef .tc main_v11_1)) (m ((c : Thread nD τ).loc main_arg2)) := by
  show StableHlo.after hostOps1_2 (StableHlo.after hostOps1_1 (StableHlo.after hostOps1 (W2 m ρ c))) (Proc.devRef .tc main_v65) = _
  after_results_simp
  rw [W2_v3 m ρ c, W2_v6 m ρ c]
  rfl

/-- The bias rows reach the second region as launched: nothing writes them, and the region only reads them. -/
theorem W5_arg4 (c : Dev nD) : W5 m ρ c (Proc.devRef .tc main_arg4) = m ((c : Thread nD τ).loc main_arg4) :=
  ((W6_arr m ρ c 2).trans (((dat1 (V5 m ρ) c).arrAt_in 2 rfl _).trans (A_eq1 (V5 m ρ) c 2))).symm.trans (W6_main_arg4 m ρ c)

theorem W5_arg6 (c : Dev nD) : W5 m ρ c (Proc.devRef .tc main_arg6) = m ((c : Thread nD τ).loc main_arg6) :=
  ((W6_arr m ρ c 3).trans (((dat1 (V5 m ρ) c).arrAt_in 3 rfl _).trans (A_eq1 (V5 m ρ) c 3))).symm.trans (W6_main_arg6 m ρ c)

end Cert.KernelHost

end
-- ==== Proof.Spec.lean ====
/-
  The mathematics both programs compute, stated once over the extended reals, with no program in sight.

  A two-modality graph convolution followed by a row-wise log-softmax over 50000 nodes and 128 output features:
  each modality's features are projected by a dense product (`proj`), pushed along the edges of the graph (the
  same gather / scale / scatter-add on both sides, kept abstract here), a bias row is added and the negative part
  cut off, the two results are added (`act`), and every row is normalised by `x - max - log (∑ exp (x - max))`
  (`logSoftmaxAt`). Sums are finite sums of extended reals, in which order and grouping do not matter; the row
  maximum is a fold of `max` from the bit pattern of minus infinity, which is the bottom element.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Node rows by output features. -/
abbrev SNO : Shape := ⟨2, ![50000, 128]⟩
/-- One row of output features (a bias). -/
abbrev SO : Shape := ⟨1, ![128]⟩

/-- The word of `+0.0` read as an extended real (it is `0`). -/
abbrev zeroW : EReal := Ideal.ofBits .f32 0x00000000#32
/-- The word of `-inf` read as an extended real (it is `⊥`). -/
abbrev negInfW : EReal := Ideal.ofBits .f32 0xFF800000#32

theorem zeroW_eq : zeroW = 0 := Ideal.ofBits_zero_f32

/-- `-inf` is neutral for `max`. -/
theorem max_negInfW (y : EReal) : max negInfW y = y := by
  show max (Ideal.ofBits .f32 0xFF800000#32) y = y
  simp [Ideal.ofBits, Ideal.ieee]

/-- Entry `(r, j)` of the product of a `50000 × d` array with a `d × 128` array: the sum over the shared coordinate. -/
def dotAt {d : Nat} (x : (⟨2, ![50000, d]⟩ : Shape).Idx → EReal) (w : (⟨2, ![d, 128]⟩ : Shape).Idx → EReal)
    (r : Fin 50000) (j : Fin 128) : EReal :=
  ∑ k : Fin d, x (ix2 r k) * w (ix2 k j)

/-- The dense projection `x · w` as one array. -/
def proj {d : Nat} (x : (⟨2, ![50000, d]⟩ : Shape).Idx → EReal) (w : (⟨2, ![d, 128]⟩ : Shape).Idx → EReal) :
    SNO.Idx → EReal :=
  fun i => dotAt x w (i 0) (i 1)

/-- Entry `(r, j)` before the softmax: `relu (a + c1) + relu (b + c2)`, the biases `c1`, `c2` constant down the rows. -/
def act (a b : SNO.Idx → EReal) (c1 c2 : SO.Idx → EReal) (r : Fin 50000) (j : Fin 128) : EReal :=
  max (a (ix2 r j) + c1 (ix1 j)) zeroW + max (b (ix2 r j) + c2 (ix1 j)) zeroW

/-- A row's maximum: the fold of `max` over its 128 entries from `-inf`. -/
def rowMax (s : Fin 128 → EReal) : EReal := (Finset.univ : Finset (Fin 128)).fold max negInfW s

/-- Entry `j` of the log-softmax of a row `s`. -/
def logSoftmaxAt (s : Fin 128 → EReal) (j : Fin 128) : EReal :=
  (s j - rowMax s) - Ideal.log (∑ k : Fin 128, Ideal.exp (s k - rowMax s))

/-- The fused tail as one array: row `r` is the log-softmax of `act … r`. -/
def fuse (a b : SNO.Idx → EReal) (c1 c2 : SO.Idx → EReal) : SNO.Idx → EReal :=
  fun i => logSoftmaxAt (act a b c1 c2 (i 0)) (i 1)

end Cert.Spec

end
-- ==== Proof.ProjRegion.lean ====
/-
  The first kernel region: two dense products on the matrix unit, ten row blocks of 5000 rows each.
  Each grid point multiplies one row block of a node-feature array by a whole weight array; the ten
  results tile the 50000-row output, so after the region each output array is the full product
  `x · w` of the arrays the region found in its input windows.
-/
import proofs.«169199_j36335423324414_1_alg».proof.Proof.Gen.KernelIdeal.Frame
import proofs.«169199_j36335423324414_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ProjRegion

open Idealize.ShloMosaic Idealize.ShloMosaic.ValueIdx Idealize.ShloMosaic.TcCoe Idealize.SL.Sem
open Idealize.ShloMosaic.Pipeline (Dat)
open Cert.KernelIdeal Cert.KernelIdeal.Gen

/-! ## The matrix-unit products at an index -/

/-- Axis 0 of the left operand's index is the output row. -/
theorem lhs_pay1_0 (i : S5000x128.Idx) (q : dot_S5000x512_S512x128_S5000x128_1_0_0_1_n_n.contr.Idx) :
    (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
/-- Axis 1 of the left operand's index is the contracted coordinate. -/
theorem lhs_pay1_1 (i : S5000x128.Idx) (q : dot_S5000x512_S512x128_S5000x128_1_0_0_1_n_n.contr.Idx) :
    (dot_S5000x512_S512x128_S5000x128_1_0_0_1_n_n.lhsIdx i q 1).val = (q ⟨0, by decide⟩).val :=
  dot_S5000x512_S512x128_S5000x128_1_0_0_1_n_n.lhsIdx_val_of_single rfl i q
/-- Axis 0 of the right operand's index is the contracted coordinate. -/
theorem rhs_pay1_0 (i : S5000x128.Idx) (q : dot_S5000x512_S512x128_S5000x128_1_0_0_1_n_n.contr.Idx) :
    (dot_S5000x512_S512x128_S5000x128_1_0_0_1_n_n.rhsIdx i q 0).val = (q ⟨0, by decide⟩).val :=
  dot_S5000x512_S512x128_S5000x128_1_0_0_1_n_n.rhsIdx_val_of_single rfl i q
/-- Axis 1 of the right operand's index is the output column. -/
theorem rhs_pay1_1 (i : S5000x128.Idx) (q : dot_S5000x512_S512x128_S5000x128_1_0_0_1_n_n.contr.Idx) :
    (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- The first product of a block: entry `(p, q)` is the sum over the 512 shared coordinates. -/
theorem pay1_apply (x0 : FVec Ideal S5000x512 .bf16) (x1 : FVec Ideal S512x128 .bf16) (p : Fin 5000) (q : Fin 128) :
    k0_pay1 (F := Ideal) x0 x1 (ix2 p q) = ∑ k : Fin 512, x0 (ix2 p k) * x1 (ix2 k q) := by
  unfold k0_pay1
  simp only [shapeCast_self, matmul]
  rw [Ideal.matmul_constant_zero_apply, ← Equiv.sum_comp (ValueIdx.contrEquiv1 dot_S5000x512_S512x128_S5000x128_1_0_0_1_n_n 512 rfl rfl).symm]
  refine Finset.sum_congr rfl fun k _ => ?_
  have hk := ValueIdx.contrEquiv1_symm_val dot_S5000x512_S512x128_S5000x128_1_0_0_1_n_n 512 rfl rfl k
  have el : dot_S5000x512_S512x128_S5000x128_1_0_0_1_n_n.lhsIdx (ix2 p q) ((ValueIdx.contrEquiv1 dot_S5000x512_S512x128_S5000x128_1_0_0_1_n_n 512 rfl rfl).symm k) = ix2 p k := funext fun a => Fin.ext (by
    match a with
    | ⟨0, _⟩ => exact lhs_pay1_0 _ _
    | ⟨1, _⟩ => exact (lhs_pay1_1 _ _).trans hk)
  have er : dot_S5000x512_S512x128_S5000x128_1_0_0_1_n_n.rhsIdx (ix2 p q) ((ValueIdx.contrEquiv1 dot_S5000x512_S512x128_S5000x128_1_0_0_1_n_n 512 rfl rfl).symm k) = ix2 k q := funext fun a => Fin.ext (by
    match a with
    | ⟨0, _⟩ => exact (rhs_pay1_0 _ _).trans hk
    | ⟨1, _⟩ => exact rhs_pay1_1 _ _)
  rw [el, er]

/-- Axis 0 of the left operand's index is the output row. -/
theorem lhs_pay2_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- Axis 1 of the left operand's index is the contracted coordinate. -/
theorem lhs_pay2_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- Axis 0 of the right operand's index is the contracted coordinate. -/
theorem rhs_pay2_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- Axis 1 of the right operand's index is the output column. -/
theorem rhs_pay2_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The second product of a block: entry `(p, q)` is the sum over the 256 shared coordinates. -/
theorem pay2_apply (x0 : FVec Ideal S5000x256 .bf16) (x1 : FVec Ideal S256x128 .bf16) (p : Fin 5000) (q : Fin 128) :
    k0_pay2 (F := Ideal) x0 x1 (ix2 p q) = ∑ k : Fin 256, x0 (ix2 p k) * x1 (ix2 k q) := by
  unfold k0_pay2
  simp only [shapeCast_self, matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs_pay2_0 _ _
    | ⟨1, _⟩ => exact (lhs_pay2_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs_pay2_0 _ _).trans hk
    | ⟨1, _⟩ => exact rhs_pay2_1 _ _)
  rw [el, er]

/-! ## The windows' blocks, read off the arrays -/

theorem hz : (![0, 0] : Fin 2 → Nat) = fun _ => 0 := funext fun a => by fin_cases a <;> rfl

/-- The block indices at grid point `t`: the row-block windows (the two feature arrays, the two outputs)
    sit at block `t` of the rows and block 0 of the columns; the weight windows at block 0 on both axes. -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The product array at an index: the sum over the shared coordinate. -/
theorem proj_apply {d : Nat} (x : (⟨2, ![50000, d]⟩ : Shape).Idx → EReal) (w : (⟨2, ![d, 128]⟩ : Shape).Idx → EReal)
    (r : Fin 50000) (q : Fin 128) :
    Cert.Spec.proj x w (ix2 r q) = ∑ k : Fin d, x (ix2 r k) * w (ix2 k q) := rfl

/-- A row inside the block of a grid point is a row of the array. -/
theorem row_lt (t : Fin cfg0.N) (p : Fin 5000) : 5000 * t.val + p.val < 50000 := by
  have ht := t.isLt
  have hN : cfg0.N = 10 := N_0
  have hp := p.isLt
  omega

section Blocks
variable (V : (c : Dev nD) → (b : Ref sig .tc) → Buf (Elt Ideal) ((c : Thread nD τ).loc b))

/-- Row `p` of the first feature window's block at point `t` is row `5000 t + p` of its array. -/
theorem iblk0_0_apply (c : Dev nD) (t : Fin cfg0.N) (p : Fin 5000) (k : Fin 512) (r : Fin 50000)
    (hr : r.val = 5000 * t.val + p.val) :
    (iblk0 (F := Ideal) V c 0 t : FVec Ideal S5000x512 .bf16) (ix2 p k)
      = (V c main_v7 : S50000x512.Idx → EReal) (ix2 r k) := by
  obtain ⟨e0, e1, -⟩ := idx_facts t
  unfold iblk0
  rw [View.read_apply]
  show V c main_v7 _ = V c main_v7 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 512 + 1 * k.val = k.val; rw [e1]; omega

/-- The first weight window's block at every point is the whole weight array. -/
theorem iblk0_1_apply (c : Dev nD) (t : Fin cfg0.N) (k : Fin 512) (q : Fin 128) :
    (iblk0 (F := Ideal) V c 1 t : FVec Ideal S512x128 .bf16) (ix2 k q)
      = (V c main_v9 : S512x128.Idx → EReal) (ix2 k q) := by
  obtain ⟨-, -, e0, e1, -⟩ := idx_facts t
  unfold iblk0
  rw [View.read_apply]
  show V c main_v9 _ = V c main_v9 _
  congr 1
  funext a
  apply Fin.ext
  match a with
  | ⟨0, _⟩ => show win0_1.index t (0 : Fin 2) * 512 + 1 * k.val = k.val; rw [e0]; omega
  | ⟨1, _⟩ => show win0_1.index t (1 : Fin 2) * 128 + 1 * q.val = q.val; rw [e1]; omega

/-- Row `p` of the second feature window's block at point `t` is row `5000 t + p` of its array. -/
theorem iblk0_2_apply (c : Dev nD) (t : Fin cfg0.N) (p : Fin 5000) (k : Fin 256) (r : Fin 50000)
    (hr : r.val = 5000 * t.val + p.val) :
    (iblk0 (F := Ideal) V c 2 t : FVec Ideal S5000x256 .bf16) (ix2 p k)
      = (V c main_v8 : S50000x256.Idx → EReal) (ix2 r k) := by
  obtain ⟨-, -, -, -, e0, e1, -⟩ := idx_facts t
  unfold iblk0
  rw [View.read_apply]
  show V c main_v8 _ = V c main_v8 _
  congr 1
  funext a
  apply Fin.ext
  match a with
  | ⟨0, _⟩ => show win0_2.index t (0 : Fin 2) * 5000 + 1 * p.val = r.val; rw [e0, hr]; omega
  | ⟨1, _⟩ => show win0_2.index t (1 : Fin 2) * 256 + 1 * k.val = k.val; rw [e1]; omega

/-- The second weight window's block at every point is the whole weight array. -/
theorem iblk0_3_apply (c : Dev nD) (t : Fin cfg0.N) (k : Fin 256) (q : Fin 128) :
    (iblk0 (F := Ideal) V c 3 t : FVec Ideal S256x128 .bf16) (ix2 k q)
      = (V c main_v10 : S256x128.Idx → EReal) (ix2 k q) := by
  obtain ⟨-, -, -, -, -, -, e0, e1, -⟩ := idx_facts t
  unfold iblk0
  rw [View.read_apply]
  show V c main_v10 _ = V c main_v10 _
  congr 1
  funext a
  apply Fin.ext
  match a with
  | ⟨0, _⟩ => show win0_3.index t (0 : Fin 2) * 256 + 1 * k.val = k.val; rw [e0]; omega
  | ⟨1, _⟩ => show win0_3.index t (1 : Fin 2) * 128 + 1 * q.val = q.val; rw [e1]; omega

end Blocks

section Region
variable (V : (c : Dev nD) → (b : Ref sig .tc) → Buf (Elt Ideal) ((c : Thread nD τ).loc b))

/-! ## What a grid point writes back -/

/-- Entry `(p, q)` of the first output window's block at point `t`, read off a whole-array function, is its
    entry `(5000 t + p, q)`. -/
theorem blk4_read (c : Dev nD) (t : Fin cfg0.N) (G : S50000x128.Idx → EReal) (p : Fin 5000) (q : Fin 128) (r : Fin 50000)
    (hr : r.val = 5000 * t.val + p.val) :
    ((cfg0.win 4).blk t).view.read (Elt Ideal) G (ix2 p q) = G (ix2 r q) := by
  obtain ⟨-, -, -, -, -, -, -, -, e0, e1, -⟩ := idx_facts t
  rw [View.read_apply]
  refine congrArg G ?_
  funext a
  apply Fin.ext
  match a with
  | ⟨0, _⟩ => show win0_4.index t (0 : Fin 2) * 5000 + 1 * p.val = r.val; rw [e0, hr]; omega
  | ⟨1, _⟩ => show win0_4.index t (1 : Fin 2) * 128 + 1 * q.val = q.val; rw [e1]; omega

/-- The same for the second output window. -/
theorem blk5_read (c : Dev nD) (t : Fin cfg0.N) (G : S50000x128.Idx → EReal) (p : Fin 5000) (q : Fin 128) (r : Fin 50000)
    (hr : r.val = 5000 * t.val + p.val) :
    ((cfg0.win 5).blk t).view.read (Elt Ideal) G (ix2 p q) = G (ix2 r q) := by
  obtain ⟨-, -, -, -, -, -, -, -, -, -, e0, e1⟩ := idx_facts t
  rw [View.read_apply]
  refine congrArg G ?_
  funext a
  apply Fin.ext
  match a with
  | ⟨0, _⟩ => show win0_5.index t (0 : Fin 2) * 5000 + 1 * p.val = r.val; rw [e0, hr]; omega
  | ⟨1, _⟩ => show win0_5.index t (1 : Fin 2) * 128 + 1 * q.val = q.val; rw [e1]; omega

/-- Point `t` writes back block `t` of the product of the first feature array with the first weight array. -/
theorem flushed4_eq (c : Dev nD) (t : Fin cfg0.N) :
    (dat0 (F := Ideal) V c).flushed 4 t
      = ((cfg0.win 4).blk t).view.read (Elt Ideal) (Cert.Spec.proj (d := 512) (V c main_v7) (V c main_v9)) := by
  show (cfg0.win 4).cut (grid0.coords t) ((dat0 V c).after 4 t) = _
  rw [after0_4]
  unfold out0_4
  rw [View.canon_unit_zero hz]
  simp only [View.ld_unit_zero (S := S5000x512) hz, View.ld_unit_zero (S := S512x128) hz]
  funext j
  obtain ⟨p, q, rfl⟩ : ∃ (p : Fin 5000) (q : Fin 128), j = ix2 p q := ⟨j 0, j 1, eq_ix2 j⟩
  refine Eq.trans ?_ (blk4_read c t _ p q ⟨5000 * t.val + p.val, row_lt t p⟩ rfl).symm
  refine (pay1_apply (iblk0 V c 0 t) (iblk0 V c 1 t) p q).trans ?_
  refine Eq.trans ?_ (proj_apply (d := 512) (V c main_v7) (V c main_v9) ⟨5000 * t.val + p.val, row_lt t p⟩ q).symm
  refine Finset.sum_congr rfl fun k _ => ?_
  rw [iblk0_0_apply V c t p k ⟨5000 * t.val + p.val, row_lt t p⟩ rfl, iblk0_1_apply V c t k q]

/-- Point `t` writes back block `t` of the product of the second feature array with the second weight array. -/
theorem flushed5_eq (c : Dev nD) (t : Fin cfg0.N) :
    (dat0 (F := Ideal) V c).flushed 5 t
      = ((cfg0.win 5).blk t).view.read (Elt Ideal) (Cert.Spec.proj (d := 256) (V c main_v8) (V c main_v10)) := by
  show (cfg0.win 5).cut (grid0.coords t) ((dat0 V c).after 5 t) = _
  rw [after0_5]
  unfold out0_5
  rw [View.canon_unit_zero hz]
  simp only [View.ld_unit_zero (S := S5000x256) hz, View.ld_unit_zero (S := S256x128) hz]
  funext j
  obtain ⟨p, q, rfl⟩ : ∃ (p : Fin 5000) (q : Fin 128), j = ix2 p q := ⟨j 0, j 1, eq_ix2 j⟩
  refine Eq.trans ?_ (blk5_read c t _ p q ⟨5000 * t.val + p.val, row_lt t p⟩ rfl).symm
  refine (pay2_apply (iblk0 V c 2 t) (iblk0 V c 3 t) p q).trans ?_
  refine Eq.trans ?_ (proj_apply (d := 256) (V c main_v8) (V c main_v10) ⟨5000 * t.val + p.val, row_lt t p⟩ q).symm
  refine Finset.sum_congr rfl fun k _ => ?_
  rw [iblk0_2_apply V c t p k ⟨5000 * t.val + p.val, row_lt t p⟩ rfl, iblk0_3_apply V c t k q]

/-! ## The ten blocks tile each output array -/

/-- An index of the first output array is in point `t`'s block iff each coordinate is in the block's range. -/
theorem mem_blk4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v11_0).slice (win0_4.rect t)).set ↔ _
  rw [View.set_slice_whole, Rect.mem_set_unit]
  exact Iff.rfl

/-- The same for the second output array. -/
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v11_1).slice (win0_5.rect t)).set ↔ _
  rw [View.set_slice_whole, Rect.mem_set_unit]
  exact Iff.rfl

/-- Row `r` of the first output array lies in the block of point `r / 5000`, which is written back. -/
theorem cover4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  refine ⟨⟨(i 0).val / 5000, by omega⟩, flush0_4 _, ?_⟩
  obtain ⟨-, -, -, -, -, -, -, -, e0, e1, -⟩ := idx_facts ⟨(i 0).val / 5000, by omega⟩
  rw [mem_blk4]
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

/-- The same for the second output array. -/
theorem cover5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by omega⟩, flush0_5 _, ?_⟩
  obtain ⟨-, -, -, -, -, -, -, -, -, -, e0, e1⟩ := idx_facts ⟨(i 0).val / 5000, by omega⟩
  rw [mem_blk5]
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-! ## The region's two output arrays -/

/-- After the ten points the first output array is the product of the first feature array with the first
    weight array, as the region found them. -/
theorem region0_out4 (c : Dev nD) :
    (dat0 (F := Ideal) V c).arrAt 4 cfg0.N = Cert.Spec.proj (d := 512) (V c main_v7) (V c main_v9) :=
  (dat0 (F := Ideal) V c).arrAt_eq_of_cover 4 (Cert.Spec.proj (d := 512) (V c main_v7) (V c main_v9))
    (fun t _ => flushed4_eq V c t) cover4

/-- After the ten points the second output array is the product of the second feature array with the second
    weight array, as the region found them. -/
theorem region0_out5 (c : Dev nD) :
    (dat0 (F := Ideal) V c).arrAt 5 cfg0.N = Cert.Spec.proj (d := 256) (V c main_v8) (V c main_v10) :=
  (dat0 (F := Ideal) V c).arrAt_eq_of_cover 5 (Cert.Spec.proj (d := 256) (V c main_v8) (V c main_v10))
    (fun t _ => flushed5_eq V c t) cover5

end Region

end Cert.ProjRegion

end
-- ==== Proof.FuseRegion.lean ====
/-
  The second kernel region's value, read off its blocks.

  At each of its ten grid points the body loads a block of 5000 rows of each of two arrays `a`, `b` and two whole bias
  rows `b1`, `b2`, and stores `logsoftmax (relu (a + b1) + relu (b + b2))` row by row: the row's entry minus the row's
  maximum minus the logarithm of the row's sum of exponentials of the shifted entries. Read at an index `(p, q)` of the
  block this is the specification's `logSoftmaxAt` of row `p` of the activation (`pay_apply`): the pointwise operations
  commute with reading an index, a bias row broadcast down the rows reads the row's lane, the lane maximum is the fold of
  `max` over the 128 lanes from minus infinity, the lane sum a sum over the 128 lanes, and each keepdims column broadcast
  back along the lanes reads its row's entry. Row `p` of point `t`'s block is row `5000 t + p` of the whole array, and
  every row `r` lies in the block of point `r / 5000`, so after the ten points the output array is, index by index, the
  fused tail of the whole arrays (`region1_out`).
-/
import proofs.«169199_j36335423324414_1_alg».proof.Proof.Gen.KernelIdeal.Frame
import proofs.«169199_j36335423324414_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.FuseRegion

open Idealize.ShloMosaic Idealize.ShloMosaic.ValueIdx Idealize.ShloMosaic.TcCoe Cert.KernelIdeal Cert.KernelIdeal.Gen

/-! ## Two keepdims layout forms read at an index -/

/-- A vector `[a]` recast as a column `[a, 1]` reads, at `(i, u)`, the vector at `i`: both positions are `i` in row-major order. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic, cut in two: the activation and the row normalisation -/

/-- The value the body normalises: each input block plus its bias row, the negative part cut off, the two added. -/
def pre (x0 x8 : Vec Ideal S5000x128 .f32) (x2 x10 : Vec Ideal S128 .f32) : FVec Ideal S5000x128 .f32 :=
  addf
    (maximumf (addf (shapeCast S5000x128 x0 shapeCasts_S5000x128_S5000x128)
        (broadcastTo S5000x128 (shapeCast S1x128 x2 shapeCasts_S128_S1x128) broadcasts_S1x128_S5000x128))
      (broadcast S5000x128 (Scalar.ofBits .f32 0x00000000#32)))
    (maximumf (addf (shapeCast S5000x128 x8 shapeCasts_S5000x128_S5000x128)
        (broadcastTo S5000x128 (shapeCast S1x128 x10 shapeCasts_S128_S1x128) broadcasts_S1x128_S5000x128))
      (broadcast S5000x128 (Scalar.ofBits .f32 0x00000000#32)))

/-- The row maxima of a block as a column. -/
def rowMaxCol (s : FVec Ideal S5000x128 .f32) : FVec Ideal S5000x1 .f32 :=
  shapeCast S5000x1 (multiReduction (F := Ideal) .maximumf [1] S5000 s 0xFF800000#32 reduces_S5000x128_S5000 (.inl rfl) rfl)
    shapeCasts_S5000_S5000x1

/-- The block with each row's maximum taken off. -/
def shifted (s : FVec Ideal S5000x128 .f32) : FVec Ideal S5000x128 .f32 :=
  subf s (broadcastTo S5000x128 (rowMaxCol s) broadcasts_S5000x1_S5000x128)

/-- The row normalisation: the shifted block minus the logarithm of each row's sum of exponentials. -/
def norm (s : FVec Ideal S5000x128 .f32) : FVec Ideal S5000x128 .f32 :=
  subf (shifted s)
    (broadcastTo S5000x128
      (log (shapeCast S5000x1
        (multiReduction (F := Ideal) .add [1] S5000 (exp (shifted s)) 0x00000000#32 reduces_S5000x128_S5000 (.inl rfl) rfl)
        shapeCasts_S5000_S5000x1))
      broadcasts_S5000x1_S5000x128)

/-- The printed payload is the normalisation of the activation. -/
theorem pay_eq (x0 x8 : Vec Ideal S5000x128 .f32) (x2 x10 : Vec Ideal S128 .f32) :
    k1_pay1 (F := Ideal) x0 x2 x8 x10 = norm (pre x0 x8 x2 x10) := rfl

/-- The activation at an index. -/
theorem pre_apply (x0 x8 : Vec Ideal S5000x128 .f32) (x2 x10 : Vec Ideal S128 .f32) (p : Fin 5000) (j : Fin 128) :
    pre x0 x8 x2 x10 (ix2 p j)
      = max (x0 (ix2 p j) + x2 (ix1 j)) Cert.Spec.zeroW + max (x8 (ix2 p j) + x10 (ix1 j)) Cert.Spec.zeroW := by
  unfold pre
  simp only [addf_apply, maximumf_apply, broadcast_apply, shapeCast_self, broadcastTo_1b_ab_apply, shapeCast_a_1a_apply]
  rfl

/-- The index the lane reduction reads at lane `k` of row `p` is `(p, k)`. -/
theorem lift_row (p : Fin 5000) (k : Fin 128) : reduces_S5000x128_S5000.lift (ix1 p) k = ix2 p k := by
  funext c; apply Fin.ext
  match c with
  | ⟨0, _⟩ => rfl
  | ⟨1, _⟩ => rfl

theorem exp_apply {s : Shape} (x : FVec Ideal s .f32) (i : s.Idx) : exp x i = Ideal.exp (x i) := rfl
theorem log_apply {s : Shape} (x : FVec Ideal s .f32) (i : s.Idx) : log x i = Ideal.log (x i) := rfl

/-- The column of row maxima at row `p` is the fold of `max` over that row's lanes from minus infinity. -/
theorem rowMaxCol_apply (s : FVec Ideal S5000x128 .f32) (p : Fin 5000) (u : Fin 1) :
    rowMaxCol s (ix2 p u) = Cert.Spec.rowMax (fun j => s (ix2 p j)) := by
  unfold rowMaxCol
  rw [shapeCast_a_a1_apply]
  refine (Ideal.multiReduction_maximumf_single s 0xFF800000#32 reduces_S5000x128_S5000 (.inl rfl) rfl (ix1 p)).trans ?_
  have e : (s ∘ reduces_S5000x128_S5000.lift (ix1 p)) = fun j : Fin 128 => s (ix2 p j) :=
    funext fun k => congrArg s (lift_row p k)
  rw [e]
  rfl

/-- The shifted block at an index: the entry minus its row's maximum. -/
theorem shifted_apply (s : FVec Ideal S5000x128 .f32) (p : Fin 5000) (q : Fin 128) :
    shifted s (ix2 p q) = s (ix2 p q) - Cert.Spec.rowMax (fun j => s (ix2 p j)) := by
  unfold shifted
  rw [subf_apply, broadcastTo_a1_ab_apply, rowMaxCol_apply]

/-- The row normalisation at an index is the log-softmax of the row. -/
theorem norm_apply (s : FVec Ideal S5000x128 .f32) (p : Fin 5000) (q : Fin 128) :
    norm s (ix2 p q) = Cert.Spec.logSoftmaxAt (fun j => s (ix2 p j)) q := by
  unfold norm
  rw [subf_apply, broadcastTo_a1_ab_apply, shifted_apply, log_apply, shapeCast_a_a1_apply]
  refine (congrArg (fun z => _ - Ideal.log z)
    (Ideal.multiReduction_add_single (exp (shifted s)) 0x00000000#32 reduces_S5000x128_S5000 (.inl rfl) rfl (ix1 p))).trans ?_
  have hs : (∑ k : Fin (S5000x128.size 1), exp (shifted s) (reduces_S5000x128_S5000.lift (ix1 p) k))
      = ∑ k : Fin 128, Ideal.exp (s (ix2 p k) - Cert.Spec.rowMax (fun j => s (ix2 p j))) :=
    Finset.sum_congr rfl fun k _ =>
      (congrArg (exp (shifted s)) (lift_row p k)).trans
        ((exp_apply _ _).trans (congrArg Ideal.exp (shifted_apply s p k)))
  rw [hs]
  rfl

/-- THE PAYLOAD AT AN INDEX: entry `(p, q)` of what the body stores is the log-softmax, at lane `q`, of row `p` of
    `relu (x0 + x2) + relu (x8 + x10)`, the bias rows `x2`, `x10` constant down the rows. -/
theorem pay_apply (x0 x8 : Vec Ideal S5000x128 .f32) (x2 x10 : Vec Ideal S128 .f32) (p : Fin 5000) (q : Fin 128) :
    k1_pay1 (F := Ideal) x0 x2 x8 x10 (ix2 p q)
      = Cert.Spec.logSoftmaxAt
          (fun j => max (x0 (ix2 p j) + x2 (ix1 j)) Cert.Spec.zeroW + max (x8 (ix2 p j) + x10 (ix1 j)) Cert.Spec.zeroW) q := by
  rw [pay_eq, norm_apply]
  exact congrArg (fun r => Cert.Spec.logSoftmaxAt r q) (funext fun j => pre_apply x0 x8 x2 x10 p j)

/-! ## From the blocks to the array -/

/-- Over whole arrays `a`, `b` and bias rows `b1`, `b2`: if the loaded blocks are rows `n * 5000 …` of `a` and `b` and the
    whole bias rows, the payload at `(p, q)` is the fused tail of the whole arrays at row `n * 5000 + p`, lane `q`. -/
theorem pay_block (a b : Vec Ideal S50000x128 .f32) (b1 b2 : Vec Ideal S128 .f32)
    (x0 x8 : Vec Ideal S5000x128 .f32) (x2 x10 : Vec Ideal S128 .f32) (n : Nat)
    (h0 : ∀ (p : Fin 5000) (j : Fin 128) (r : Fin 50000), r.val = n * 5000 + p.val → x0 (ix2 p j) = a (ix2 r j))
    (h8 : ∀ (p : Fin 5000) (j : Fin 128) (r : Fin 50000), r.val = n * 5000 + p.val → x8 (ix2 p j) = b (ix2 r j))
    (h2 : ∀ j : Fin 128, x2 (ix1 j) = b1 (ix1 j)) (h10 : ∀ j : Fin 128, x10 (ix1 j) = b2 (ix1 j))
    (p : Fin 5000) (q : Fin 128) (r : Fin 50000) (hr : r.val = n * 5000 + p.val) :
    k1_pay1 (F := Ideal) x0 x2 x8 x10 (ix2 p q) = Cert.Spec.fuse a b b1 b2 (ix2 r q) := by
  rw [pay_apply]
  show _ = Cert.Spec.logSoftmaxAt (Cert.Spec.act a b b1 b2 r) q
  refine congrArg (fun s => Cert.Spec.logSoftmaxAt s q) (funext fun j => ?_)
  rw [h0 p j r hr, h8 p j r hr, h2 j, h10 j]
  rfl

section Region

variable (V : (c : Dev nD) → (b : Ref sig .tc) → Buf (Elt Ideal) ((c : Thread nD τ).loc b))

theorem hz2 : (![0, 0] : Fin 2 → Nat) = fun _ => 0 :=
  funext fun a => match a with | ⟨0, _⟩ => rfl | ⟨1, _⟩ => rfl
theorem hz1 : (![0] : Fin 1 → Nat) = fun _ => 0 :=
  funext fun a => match a with | ⟨0, _⟩ => rfl

/-- The index maps over the grid: the row-block windows (0, 1 and the output 4) sit at block row `t`, lane block 0; the
    bias windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0
    ∧ win1_4.index t (0 : Fin 2) = t.val ∧ win1_4.index t (1 : Fin 2) = 0 :=
  (by decide +kernel : ∀ t : Fin grid1.N, _)

/-- Input window 0's block at point `t` is rows `5000 t …` of its array. -/
theorem iblk0_apply (c : Dev nD) (t : Fin cfg1.N) (p : Fin 5000) (j : Fin 128) (r : Fin 50000)
    (hr : r.val = t.val * 5000 + p.val) :
    (iblk1 V c 0 t : Vec Ideal S5000x128 .f32) (ix2 p j) = (V c main_v62 : Vec Ideal S50000x128 .f32) (ix2 r j) := by
  obtain ⟨e0, e1, -⟩ := idx_facts t
  unfold iblk1
  rw [View.read_apply]
  show V c main_v62 _ = V c main_v62 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * j.val = j.val; rw [e1]; omega

/-- Input window 1's block at point `t` is rows `5000 t …` of its array. -/
theorem iblk1_apply (c : Dev nD) (t : Fin cfg1.N) (p : Fin 5000) (j : Fin 128) (r : Fin 50000)
    (hr : r.val = t.val * 5000 + p.val) :
    (iblk1 V c 1 t : Vec Ideal S5000x128 .f32) (ix2 p j) = (V c main_v65 : Vec Ideal S50000x128 .f32) (ix2 r j) := by
  obtain ⟨-, -, e0, e1, -⟩ := idx_facts t
  unfold iblk1
  rw [View.read_apply]
  show V c main_v65 _ = V c main_v65 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * j.val = j.val; rw [e1]; omega

/-- Input window 2's block at any point is its whole bias row. -/
theorem iblk2_apply (c : Dev nD) (t : Fin cfg1.N) (j : Fin 128) :
    (iblk1 V c 2 t : Vec Ideal S128 .f32) (ix1 j) = (V c main_arg4 : Vec Ideal S128 .f32) (ix1 j) := by
  obtain ⟨-, -, -, -, e0, -⟩ := idx_facts t
  unfold iblk1
  rw [View.read_apply]
  show V c main_arg4 _ = V c main_arg4 _
  congr 1
  funext a
  apply Fin.ext
  match a with
  | ⟨0, _⟩ => show win1_2.index t (0 : Fin 1) * 128 + 1 * j.val = j.val; rw [e0]; omega

/-- Input window 3's block at any point is its whole bias row. -/
theorem iblk3_apply (c : Dev nD) (t : Fin cfg1.N) (j : Fin 128) :
    (iblk1 V c 3 t : Vec Ideal S128 .f32) (ix1 j) = (V c main_arg6 : Vec Ideal S128 .f32) (ix1 j) := by
  obtain ⟨-, -, -, -, -, e0, -⟩ := idx_facts t
  unfold iblk1
  rw [View.read_apply]
  show V c main_arg6 _ = V c main_arg6 _
  congr 1
  funext a
  apply Fin.ext
  match a with
  | ⟨0, _⟩ => show win1_3.index t (0 : Fin 1) * 128 + 1 * j.val = j.val; rw [e0]; omega

/-- WHAT POINT `t` WRITES BACK is block `t` of the fused tail of the whole arrays as the region finds them. -/
theorem flushed_eq (c : Dev nD) (t : Fin cfg1.N) :
    (dat1 (F := Ideal) V c).flushed 4 t
      = ((cfg1.win 4).blk t).view.read (Elt Ideal)
          (Cert.Spec.fuse (V c main_v62) (V c main_v65) (V c main_arg4) (V c main_arg6)) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S128) hz1]
  funext y
  obtain ⟨p, q, rfl⟩ : ∃ (p : Fin 5000) (q : Fin 128), y = ix2 p q := ⟨y 0, y 1, @eq_ix2 5000 128 y⟩
  have hN : t.val < 10 := Nat.lt_of_lt_of_eq t.isLt (show cfg1.N = 10 from N_1)
  obtain ⟨-, -, -, -, -, -, e0, e1⟩ := idx_facts t
  rw [View.read_apply]
  have he : ((cfg1.win 4).blk t).view.emb (ix2 p q)
      = (ix2 (⟨t.val * 5000 + p.val, by have := p.isLt; omega⟩ : Fin 50000) q : S50000x128.Idx) := by
    funext a
    apply Fin.ext
    match a with
    | ⟨0, _⟩ => show win1_4.index t (0 : Fin 2) * 5000 + 1 * p.val = t.val * 5000 + p.val; rw [e0]; omega
    | ⟨1, _⟩ => show win1_4.index t (1 : Fin 2) * 128 + 1 * q.val = q.val; rw [e1]; omega
  rw [he]
  exact pay_block (V c main_v62) (V c main_v65) (V c main_arg4) (V c main_arg6)
    (iblk1 V c 0 t) (iblk1 V c 1 t) (iblk1 V c 2 t) (iblk1 V c 3 t) t.val
    (fun p j r hr => iblk0_apply V c t p j r hr) (fun p j r hr => iblk1_apply V c t p j r hr)
    (fun j => iblk2_apply V c t j) (fun j => iblk3_apply V c t j) p q _ rfl

/-- An index of the output array is in point `t`'s block iff each coordinate is in the block's range on its axis. -/
theorem mem_blk (t : Fin cfg1.N) (i : S50000x128.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole main_v66).slice (win1_4.rect t)).set ↔ _
  rw [View.set_slice_whole, Rect.mem_set_unit]
  exact Iff.rfl

/-- THE REGION'S VALUE: after its ten points the output array is, index by index, the fused tail — bias, relu, add,
    row-wise log-softmax — of the whole input arrays as the region finds them. Row `r` is written by point `r / 5000`. -/
theorem region1_out (c : Dev nD) :
    (dat1 (F := Ideal) V c).arrAt 4 cfg1.N
      = Cert.Spec.fuse (V c main_v62) (V c main_v65) (V c main_arg4) (V c main_arg6) :=
  (dat1 (F := Ideal) V c).arrAt_eq_of_cover 4
    (Cert.Spec.fuse (V c main_v62) (V c main_v65) (V c main_arg4) (V c main_arg6))
    (fun t _ => flushed_eq V c t) fun i => by
      have hi0 : (i 0).val < 50000 := (i 0).isLt
      have hi1 : (i 1).val < 128 := (i 1).isLt
      let t : Fin cfg1.N := ⟨(i 0).val / 5000, by show _ < grid1.N; rw [N_1]; omega⟩
      obtain ⟨-, -, -, -, -, -, e0, e1⟩ := idx_facts t
      refine ⟨t, flush1_4 t, ?_⟩
      rw [mem_blk]
      intro a
      match a with
      | ⟨0, _⟩ =>
        show win1_4.index t (0 : Fin 2) * 5000 ≤ (i 0).val ∧ (i 0).val < win1_4.index t (0 : Fin 2) * 5000 + 5000
        rw [e0]; show (i 0).val / 5000 * 5000 ≤ (i 0).val ∧ (i 0).val < (i 0).val / 5000 * 5000 + 5000; omega
      | ⟨1, _⟩ =>
        show win1_4.index t (1 : Fin 2) * 128 ≤ (i 1).val ∧ (i 1).val < win1_4.index t (1 : Fin 2) * 128 + 128
        rw [e1]; omega

end Region

end Cert.FuseRegion

end
-- ==== Proof.KernelValue.lean ====
/-
  The kernel program's result array as one function of its arguments, at the extended reals.

  The second region leaves in the result array the row-wise log-softmax of the two pushed, biased and rectified
  arrays it finds (`Cert.FuseRegion.region1_out`); each of those is the shared edge stage of what the first region
  left (`Cert.KernelHost.W5_v62`, `W5_v65`), which is the dense product of the feature and weight arrays it found
  (`Cert.ProjRegion.region0_out4`, `region0_out5`), and those are the arguments themselves: the change of float format
  in front of the first region is the identity on extended reals.
-/
import proofs.«169199_j36335423324414_1_alg».proof.Proof.KernelHost
import proofs.«169199_j36335423324414_1_alg».proof.Proof.ProjRegion
import proofs.«169199_j36335423324414_1_alg».proof.Proof.FuseRegion

set_option maxRecDepth 16384

noncomputable section

namespace Cert.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the first region leaves in its first output array: the first modality's dense product. -/
theorem W2_v11_0 (c : Dev nD) : W2 m ρ c (Proc.devRef .tc main_v11_0)
    = Cert.Spec.proj (d := 512) (m ((c : Thread nD τ).loc main_arg0)) (m ((c : Thread nD τ).loc main_arg3)) := by
  refine ((W2_arr m ρ c 4).trans (Cert.ProjRegion.region0_out4 (V1 m ρ) c)).trans ?_
  show Cert.Spec.proj (d := 512) (W1 m ρ c (Proc.devRef .tc main_v7)) (W1 m ρ c (Proc.devRef .tc main_v9)) = _
  rw [Cert.KernelHost.W1_v7 m ρ c, Cert.KernelHost.W1_v9 m ρ c]
  rfl

/-- And in its second: the second modality's. -/
theorem W2_v11_1 (c : Dev nD) : W2 m ρ c (Proc.devRef .tc main_v11_1)
    = Cert.Spec.proj (d := 256) (m ((c : Thread nD τ).loc main_arg1)) (m ((c : Thread nD τ).loc main_arg5)) := by
  refine ((W2_arr m ρ c 5).trans (Cert.ProjRegion.region0_out5 (V1 m ρ) c)).trans ?_
  show Cert.Spec.proj (d := 256) (W1 m ρ c (Proc.devRef .tc main_v8)) (W1 m ρ c (Proc.devRef .tc main_v10)) = _
  rw [Cert.KernelHost.W1_v8 m ρ c, Cert.KernelHost.W1_v10 m ρ c]
  rfl

/-- The result array after the last region, as a function of the arguments. -/
theorem kernel_value (c : Dev nD) :
    W6 m ρ c (Proc.devRef .tc main_v66)
      = Cert.Spec.fuse
          (Cert.Edges.push (F := Ideal) (Cert.Spec.proj (d := 512) (m ((c : Thread nD τ).loc main_arg0)) (m ((c : Thread nD τ).loc main_arg3))) (m ((c : Thread nD τ).loc main_arg2)))
          (Cert.Edges.push (F := Ideal) (Cert.Spec.proj (d := 256) (m ((c : Thread nD τ).loc main_arg1)) (m ((c : Thread nD τ).loc main_arg5))) (m ((c : Thread nD τ).loc main_arg2)))
          (m ((c : Thread nD τ).loc main_arg4)) (m ((c : Thread nD τ).loc main_arg6)) := by
  refine ((W6_arr m ρ c 4).trans (Cert.FuseRegion.region1_out (V5 m ρ) c)).trans ?_
  show Cert.Spec.fuse (W5 m ρ c (Proc.devRef .tc main_v62)) (W5 m ρ c (Proc.devRef .tc main_v65)) (W5 m ρ c (Proc.devRef .tc main_arg4)) (W5 m ρ c (Proc.devRef .tc main_arg6)) = _
  rw [Cert.KernelHost.W5_v62 m ρ c, Cert.KernelHost.W5_v65 m ρ c, Cert.KernelHost.W5_arg4 m ρ c, Cert.KernelHost.W5_arg6 m ρ c,
    W2_v11_0 m ρ c, W2_v11_1 m ρ c]

end Cert.KernelValue

end
-- ==== Proof.RefStages.lean ====
/-
  The reference's run read back stretch by stretch.

  The reference is one straight line of 149 host operations; its run ends with every buffer at the fold of the
  operations over the launch memory. The line is cut where its values are used many times: after the two index
  rows (sources and destinations with the self-loops), after the first modality's branch (product, degrees, weights,
  push, bias, relu), after the second modality's, and the log-softmax tail. Each stretch's results are read off the
  fold from the stretch before, and named by the stage functions of the operations (`val_…`), so that no long term
  is ever compared with another: a stretch's term meets its stage by unfolding the stages of that stretch only.
-/
import proofs.«169199_j36335423324414_1_alg».proof.Proof.RefRead
import Idealize.ShloMosaic.Lib.Pipeline.Frame

set_option maxRecDepth 16384

noncomputable section

namespace Cert.RefStages

open Idealize.ShloMosaic Idealize.ShloMosaic.TcCoe Idealize.SL.Sem Idealize.ShloMosaic.StableHlo
open Cert.ReferenceIdeal Cert.ReferenceIdeal.Gen Cert.ReferenceIdeal.RunP Cert.ReferenceIdeal.ReadP

variable {F : FTy → Type} [FloatOps F]

/-! ## The line in four stretches -/

/-- The two index rows: 7 operations. -/
abbrev opsA : List (HloOp τ sig (Elt F)) := (ops (F := F)).take 7
/-- The first modality's branch: 63 operations. -/
abbrev opsB : List (HloOp τ sig (Elt F)) := ((ops (F := F)).drop 7).take 63
/-- The second modality's branch: 63 operations. -/
abbrev opsC : List (HloOp τ sig (Elt F)) := (((ops (F := F)).drop 7).drop 63).take 63
/-- The sum of the two branches: 1 operation. -/
abbrev opsD : List (HloOp τ sig (Elt F)) := ((((ops (F := F)).drop 7).drop 63).drop 63).take 1
/-- The row maximum and the shifted rows: 8 operations. -/
abbrev opsE : List (HloOp τ sig (Elt F)) := (((((ops (F := F)).drop 7).drop 63).drop 63).drop 1).take 8
/-- The exponentials, their row sums, the logarithm and the last difference: 7 operations. -/
abbrev opsG : List (HloOp τ sig (Elt F)) := (((((ops (F := F)).drop 7).drop 63).drop 63).drop 1).drop 8

theorem ops_eq : ops (F := F) = opsA ++ (opsB ++ (opsC ++ (opsD ++ (opsE ++ opsG)))) := by
  show ops (F := F) = (ops (F := F)).take 7 ++ (((ops (F := F)).drop 7).take 63 ++ ((((ops (F := F)).drop 7).drop 63).take 63
    ++ (((((ops (F := F)).drop 7).drop 63).drop 63).take 1 ++ ((((((ops (F := F)).drop 7).drop 63).drop 63).drop 1).take 8
      ++ (((((ops (F := F)).drop 7).drop 63).drop 63).drop 1).drop 8))))
  rw [List.take_append_drop, List.take_append_drop, List.take_append_drop, List.take_append_drop, List.take_append_drop]

variable (m : (ℓ : Loc nD τ sig) → Buf (Elt F) ℓ) (c : Dev nD)

/-- The buffers after the index rows. -/
def VA : Valuation τ sig (Elt F) := after opsA (launchContents m c)
/-- After the first branch. -/
def VB : Valuation τ sig (Elt F) := after opsB (VA m c)
/-- After the second branch. -/
def VC : Valuation τ sig (Elt F) := after opsC (VB m c)
/-- After the two branches are added. -/
def VD : Valuation τ sig (Elt F) := after opsD (VC m c)
/-- After the rows are shifted by their maxima. -/
def VE : Valuation τ sig (Elt F) := after opsE (VD m c)

/-- The whole line's fold is the last stretch's from `VE`. -/
theorem after_ops : after (ops (F := F)) (launchContents m c) = after opsG (VE m c) := by
  conv_lhs => rw [ops_eq]
  rw [StableHlo.after_append, StableHlo.after_append, StableHlo.after_append, StableHlo.after_append, StableHlo.after_append]
  rfl

/-! ## After the index rows -/

theorem VA_v3 : VA m c (Proc.devRef .tc main_v3) = val_main_v3 (F := F) (m ((c.tc : Thread nD τ).loc main_arg2)) := by
  show after opsA (launchContents m c) (Proc.devRef .tc main_v3) = _
  simp only [opsA, opsB, opsC, opsD, opsE, opsG, ops, List.take_succ_cons, List.take_zero, List.drop_succ_cons, List.drop_zero]
  after_results
  rfl

theorem VA_v6 : VA m c (Proc.devRef .tc main_v6) = val_main_v6 (F := F) (m ((c.tc : Thread nD τ).loc main_arg2)) := by
  show after opsA (launchContents m c) (Proc.devRef .tc main_v6) = _
  simp only [opsA, opsB, opsC, opsD, opsE, opsG, ops, List.take_succ_cons, List.take_zero, List.drop_succ_cons, List.drop_zero]
  after_results
  rfl

theorem VA_arg (b : Ref sig .tc) (hb : b = main_arg0 ∨ b = main_arg1 ∨ b = main_arg3 ∨ b = main_arg4 ∨ b = main_arg5 ∨ b = main_arg6) :
    VA m c (Proc.devRef .tc b) = m ((c.tc : Thread nD τ).loc b) := by
  show after opsA (launchContents m c) (Proc.devRef .tc b) = _
  simp only [opsA, opsB, opsC, opsD, opsE, opsG, ops, List.take_succ_cons, List.take_zero, List.drop_succ_cons, List.drop_zero]
  rcases hb with rfl | rfl | rfl | rfl | rfl | rfl <;> (after_results_simp <;> rfl)

/-! ## After the first branch -/

theorem VB_v52 : VB m c (Proc.devRef .tc main_v52) = val_main_v52 (F := F) (m ((c.tc : Thread nD τ).loc main_arg0)) (m ((c.tc : Thread nD τ).loc main_arg2)) (m ((c.tc : Thread nD τ).loc main_arg3)) (m ((c.tc : Thread nD τ).loc main_arg4)) := by
  show after opsB (VA m c) (Proc.devRef .tc main_v52) = _
  simp only [opsA, opsB, opsC, opsD, opsE, opsG, ops, List.take_succ_cons, List.take_zero, List.drop_succ_cons, List.drop_zero]
  after_results_simp
  rw [VA_v3 m c, VA_v6 m c, VA_arg m c main_arg0 (by decide), VA_arg m c main_arg3 (by decide), VA_arg m c main_arg4 (by decide)]
  rfl

/-- The index rows and the second branch's arguments pass the first branch untouched. -/
theorem VB_v3 : VB m c (Proc.devRef .tc main_v3) = val_main_v3 (F := F) (m ((c.tc : Thread nD τ).loc main_arg2)) := by
  show after opsB (VA m c) (Proc.devRef .tc main_v3) = _
  simp only [opsA, opsB, opsC, opsD, opsE, opsG, ops, List.take_succ_cons, List.take_zero, List.drop_succ_cons, List.drop_zero]
  after_results_simp
  exact VA_v3 m c

theorem VB_v6 : VB m c (Proc.devRef .tc main_v6) = val_main_v6 (F := F) (m ((c.tc : Thread nD τ).loc main_arg2)) := by
  show after opsB (VA m c) (Proc.devRef .tc main_v6) = _
  simp only [opsA, opsB, opsC, opsD, opsE, opsG, ops, List.take_succ_cons, List.take_zero, List.drop_succ_cons, List.drop_zero]
  after_results_simp
  exact VA_v6 m c

theorem VB_arg (b : Ref sig .tc) (hb : b = main_arg1 ∨ b = main_arg5 ∨ b = main_arg6) :
    VB m c (Proc.devRef .tc b) = m ((c.tc : Thread nD τ).loc b) := by
  show after opsB (VA m c) (Proc.devRef .tc b) = _
  simp only [opsA, opsB, opsC, opsD, opsE, opsG, ops, List.take_succ_cons, List.take_zero, List.drop_succ_cons, List.drop_zero]
  rcases hb with rfl | rfl | rfl
  · after_results_simp; exact VA_arg m c main_arg1 (by decide)
  · after_results_simp; exact VA_arg m c main_arg5 (by decide)
  · after_results_simp; exact VA_arg m c main_arg6 (by decide)

/-! ## After the second branch -/

theorem VC_v98 : VC m c (Proc.devRef .tc main_v98) = val_main_v98 (F := F) (m ((c.tc : Thread nD τ).loc main_arg1)) (m ((c.tc : Thread nD τ).loc main_arg2)) (m ((c.tc : Thread nD τ).loc main_arg5)) (m ((c.tc : Thread nD τ).loc main_arg6)) := by
  show after opsC (VB m c) (Proc.devRef .tc main_v98) = _
  simp only [opsA, opsB, opsC, opsD, opsE, opsG, ops, List.take_succ_cons, List.take_zero, List.drop_succ_cons, List.drop_zero]
  after_results_simp
  rw [VB_v3 m c, VB_v6 m c, VB_arg m c main_arg1 (by decide), VB_arg m c main_arg5 (by decide), VB_arg m c main_arg6 (by decide)]
  rfl

/-- The first branch's result passes the second untouched. -/
theorem VC_v52 : VC m c (Proc.devRef .tc main_v52) = val_main_v52 (F := F) (m ((c.tc : Thread nD τ).loc main_arg0)) (m ((c.tc : Thread nD τ).loc main_arg2)) (m ((c.tc : Thread nD τ).loc main_arg3)) (m ((c.tc : Thread nD τ).loc main_arg4)) := by
  show after opsC (VB m c) (Proc.devRef .tc main_v52) = _
  simp only [opsA, opsB, opsC, opsD, opsE, opsG, ops, List.take_succ_cons, List.take_zero, List.drop_succ_cons, List.drop_zero]
  after_results_simp
  exact VB_v52 m c

/-- A value written through a typed reference and read back through it is itself. -/
theorem ofBuf_toBuf {Val : EltTy → Type} {T : BufTy} (x : TRef sig T) (v : T.Contents Val) : x.ofBuf (x.toBuf v) = v := by
  obtain ⟨r, rfl, h2, h3⟩ := x; rfl

/-! ## The tail -/

/-- The two branches added. -/
theorem VD_v99 : VD m c (Proc.devRef .tc main_v99) = val_main_v99 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after opsD (VC m c) (Proc.devRef .tc main_v99) = _
  simp only [opsA, opsB, opsC, opsD, opsE, opsG, ops, List.take_succ_cons, List.take_zero, List.drop_succ_cons, List.drop_zero]
  after_results_simp
  rw [VC_v52 m c, VC_v98 m c]
  rfl

/-- Every row shifted by its maximum. -/
theorem VE_v5 : VE m c (Proc.devRef .tc main_call4_v5) = val_main_call4_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after opsE (VD m c) (Proc.devRef .tc main_call4_v5) = _
  simp only [opsA, opsB, opsC, opsD, opsE, opsG, ops, List.take_succ_cons, List.take_zero, List.drop_succ_cons, List.drop_zero]
  after_results_simp
  rw [VD_v99 m c]
  simp only [ofBuf_toBuf]
  unfold val_main_call4_v5 val_main_call4_v4 val_main_call4_v3 val_main_call4_v2 val_main_call4_v1 val_main_call4_v0 val_main_call4_cst val_main_call4_cst_0
  rfl

/-! ## The result -/

/-- The result buffer after the whole line is the last operation's stage, a function of the seven arguments. -/
theorem result_eq : after (ops (F := F)) (launchContents m c) (Proc.devRef .tc main_v100)
    = val_main_v100 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [after_ops m c]
  simp only [opsA, opsB, opsC, opsD, opsE, opsG, ops, List.take_succ_cons, List.take_zero, List.drop_succ_cons, List.drop_zero]
  after_results_simp
  rw [VE_v5 m c]
  simp only [ofBuf_toBuf]
  unfold val_main_v100 val_main_call4_v10 val_main_call4_v9 val_main_call4_v8 val_main_call4_v7 val_main_call4_v6 val_main_call4_cst_1
  rfl

end Cert.RefStages

end
-- ==== Proof.RefValue.lean ====
/-
  The reference program's result, read as the shared specification.

  The reference computes, for each of the two feature sets, a dense product with a weight matrix, pushes the product
  along the edges of the graph (gather at the sources, scale by the edge weights, add up at the destinations), adds a
  bias row and cuts off the negative part; it adds the two results and takes a log-softmax along every row.
  Three facts give its value. The edge stage is, operation by operation, the shared function of the product and the
  edge list, so the two are equal without being opened. Each dense product is, entry by entry, the sum over the shared
  coordinate of the products of the entries. And the rest, read at an entry, is the row-wise formula
  x - max - log (sum of exp (x - max)): the row maximum is a fold of max from minus infinity, which is neutral for max,
  and the sum starts from zero, which is neutral for the sum.
-/
import proofs.«169199_j36335423324414_1_alg».proof.Proof.RefRead
import proofs.«169199_j36335423324414_1_alg».proof.Proof.Gen.KernelIdeal
import proofs.«169199_j36335423324414_1_alg».proof.Proof.Spec
import proofs.«169199_j36335423324414_1_alg».proof.Proof.Edges
import Idealize.ShloMosaic.PureOps.Reduce
import Idealize.ShloMosaic.PureOps.Ideal.Laws
import Idealize.ShloMosaic.Lib.ValueIdx

noncomputable section

open scoped BigOperators

namespace Cert.RefValue

open Idealize.ShloMosaic Idealize.ShloMosaic.ValueIdx Cert.ReferenceIdeal Cert.ReferenceIdeal.ReadP

/-! ## The edge stage is the shared one -/

section EdgeStage
variable {F : FTy → Type} [FloatOps F]

/-- The reference's source column is the shared one. -/
theorem src_eq (x2 : (⟨S2x800000, .i32⟩ : BufTy).Contents (Elt F)) : val_main_v3 (F := F) x2 = Cert.Edges.src x2 := rfl
/-- The reference's destination column is the shared one. -/
theorem dst_eq (x2 : (⟨S2x800000, .i32⟩ : BufTy).Contents (Elt F)) : val_main_v6 (F := F) x2 = Cert.Edges.dst x2 := rfl

/-- Each of the reference's eight wrapped index columns is the shared wrap of the sources or of the destinations. -/
theorem wrap14 (x2 : (⟨S2x800000, .i32⟩ : BufTy).Contents (Elt F)) : val_main_v14 (F := F) x2 = Cert.Edges.wrap (Cert.Edges.dst x2) := rfl
theorem wrap26 (x2 : (⟨S2x800000, .i32⟩ : BufTy).Contents (Elt F)) : val_main_v26 (F := F) x2 = Cert.Edges.wrap (Cert.Edges.src x2) := rfl
theorem wrap33 (x2 : (⟨S2x800000, .i32⟩ : BufTy).Contents (Elt F)) : val_main_v33 (F := F) x2 = Cert.Edges.wrap (Cert.Edges.dst x2) := rfl
theorem wrap41 (x2 : (⟨S2x800000, .i32⟩ : BufTy).Contents (Elt F)) : val_main_v41 (F := F) x2 = Cert.Edges.wrap (Cert.Edges.src x2) := rfl
theorem wrap60 (x2 : (⟨S2x800000, .i32⟩ : BufTy).Contents (Elt F)) : val_main_v60 (F := F) x2 = Cert.Edges.wrap (Cert.Edges.dst x2) := rfl
theorem wrap72 (x2 : (⟨S2x800000, .i32⟩ : BufTy).Contents (Elt F)) : val_main_v72 (F := F) x2 = Cert.Edges.wrap (Cert.Edges.src x2) := rfl
theorem wrap79 (x2 : (⟨S2x800000, .i32⟩ : BufTy).Contents (Elt F)) : val_main_v79 (F := F) x2 = Cert.Edges.wrap (Cert.Edges.dst x2) := rfl
theorem wrap87 (x2 : (⟨S2x800000, .i32⟩ : BufTy).Contents (Elt F)) : val_main_v87 (F := F) x2 = Cert.Edges.wrap (Cert.Edges.src x2) := rfl

/-- The degrees, both times the reference computes them. -/
theorem deg16 (x2 : (⟨S2x800000, .i32⟩ : BufTy).Contents (Elt F)) : val_main_v16 (F := F) x2 = Cert.Edges.deg x2 := by
  unfold val_main_v16 Cert.Edges.deg
  rw [wrap14]
  rfl
theorem deg62 (x2 : (⟨S2x800000, .i32⟩ : BufTy).Contents (Elt F)) : val_main_v62 (F := F) x2 = Cert.Edges.deg x2 := by
  unfold val_main_v62 Cert.Edges.deg
  rw [wrap60]
  rfl

/-- The node weights, both times. -/
theorem dinv20 (x2 : (⟨S2x800000, .i32⟩ : BufTy).Contents (Elt F)) : val_main_v20 (F := F) x2 = Cert.Edges.dinv x2 := by
  unfold val_main_v20 val_main_v18 val_main_v19 Cert.Edges.dinv
  rw [deg16]
  rfl
theorem dinv66 (x2 : (⟨S2x800000, .i32⟩ : BufTy).Contents (Elt F)) : val_main_v66 (F := F) x2 = Cert.Edges.dinv x2 := by
  unfold val_main_v66 val_main_v64 val_main_v65 Cert.Edges.dinv
  rw [deg62]
  rfl

/-- The edge weights, both times. -/
theorem norm35 (x2 : (⟨S2x800000, .i32⟩ : BufTy).Contents (Elt F)) : val_main_v35 (F := F) x2 = Cert.Edges.norm x2 := by
  unfold val_main_v35 val_main_v27 val_main_v34 Cert.Edges.norm
  rw [dinv20, wrap26, wrap33]
  rfl
theorem norm81 (x2 : (⟨S2x800000, .i32⟩ : BufTy).Contents (Elt F)) : val_main_v81 (F := F) x2 = Cert.Edges.norm x2 := by
  unfold val_main_v81 val_main_v73 val_main_v80 Cert.Edges.norm
  rw [dinv66, wrap72, wrap79]
  rfl

/-- The first feature set's scatter result is the shared edge stage applied to its dense product: the same operations
    on the same operands, one after the other. -/
theorem edges_first (x0 : (⟨S50000x512, .f32⟩ : BufTy).Contents (Elt F)) (x2 : (⟨S2x800000, .i32⟩ : BufTy).Contents (Elt F))
    (x3 : (⟨S512x128, .f32⟩ : BufTy).Contents (Elt F)) :
    val_main_v48 (F := F) x0 x2 x3 = Cert.Edges.push (val_main_v7 (F := F) x0 x3) x2 := by
  unfold val_main_v48 val_main_v47 val_main_v45 val_main_v44 val_main_v43 val_main_v42 Cert.Edges.push
  rw [norm35, wrap41, dst_eq]
  rfl

/-- The same for the second feature set. -/
theorem edges_second (x1 : (⟨S50000x256, .f32⟩ : BufTy).Contents (Elt F)) (x2 : (⟨S2x800000, .i32⟩ : BufTy).Contents (Elt F))
    (x5 : (⟨S256x128, .f32⟩ : BufTy).Contents (Elt F)) :
    val_main_v94 (F := F) x1 x2 x5 = Cert.Edges.push (val_main_v53 (F := F) x1 x5) x2 := by
  unfold val_main_v94 val_main_v93 val_main_v91 val_main_v90 val_main_v89 val_main_v88 Cert.Edges.push
  rw [norm81, wrap87, dst_eq]
  rfl

end EdgeStage

/-! ## The dense products -/

/-- Entry (r, j) of the first product is the sum over the 512 shared coordinates. -/
theorem proj_first (x0 : (⟨S50000x512, .f32⟩ : BufTy).Contents (Elt Ideal)) (x3 : (⟨S512x128, .f32⟩ : BufTy).Contents (Elt Ideal)) :
    val_main_v7 (F := Ideal) x0 x3 = Cert.Spec.proj (d := 512) x0 x3 := by
  funext i
  rw [val_main_v7_apply]
  show _ = ∑ k : Fin 512, x0 (ix2 (i 0) k) * x3 (ix2 k (i 1))
  refine Finset.sum_congr rfl fun k _ => ?_
  have el : lidx_main_v7 i k = ix2 (i 0) k :=
    funext fun a => Fin.ext (by match a with | ⟨0, _⟩ => rfl | ⟨1, _⟩ => rfl)
  have er : ridx_main_v7 i k = ix2 k (i 1) :=
    funext fun a => Fin.ext (by match a with | ⟨0, _⟩ => rfl | ⟨1, _⟩ => rfl)
  rw [el, er]
  rfl

/-- Entry (r, j) of the second product is the sum over the 256 shared coordinates. -/
theorem proj_second (x1 : (⟨S50000x256, .f32⟩ : BufTy).Contents (Elt Ideal)) (x5 : (⟨S256x128, .f32⟩ : BufTy).Contents (Elt Ideal)) :
    val_main_v53 (F := Ideal) x1 x5 = Cert.Spec.proj (d := 256) x1 x5 := by
  funext i
  rw [val_main_v53_apply]
  show _ = ∑ k : Fin 256, x1 (ix2 (i 0) k) * x5 (ix2 k (i 1))
  refine Finset.sum_congr rfl fun k _ => ?_
  have el : lidx_main_v53 i k = ix2 (i 0) k :=
    funext fun a => Fin.ext (by match a with | ⟨0, _⟩ => rfl | ⟨1, _⟩ => rfl)
  have er : ridx_main_v53 i k = ix2 k (i 1) :=
    funext fun a => Fin.ext (by match a with | ⟨0, _⟩ => rfl | ⟨1, _⟩ => rfl)
  rw [el, er]
  rfl

/-! ## The tail at an entry -/

section Tail
variable (x0 : (⟨S50000x512, .f32⟩ : BufTy).Contents (Elt Ideal)) (x1 : (⟨S50000x256, .f32⟩ : BufTy).Contents (Elt Ideal))
  (x2 : (⟨S2x800000, .i32⟩ : BufTy).Contents (Elt Ideal)) (x3 : (⟨S512x128, .f32⟩ : BufTy).Contents (Elt Ideal))
  (x4 : (⟨S128, .f32⟩ : BufTy).Contents (Elt Ideal)) (x5 : (⟨S256x128, .f32⟩ : BufTy).Contents (Elt Ideal))
  (x6 : (⟨S128, .f32⟩ : BufTy).Contents (Elt Ideal))

/-- Before the softmax, entry (p, q) is relu (a + bias) + relu (b + bias) of the two scatter results a and b. -/
theorem pre_at (p : Fin 50000) (q : Fin 128) :
    val_main_v99 (F := Ideal) x0 x1 x2 x3 x4 x5 x6 (ix2 p q)
      = Cert.Spec.act (val_main_v48 (F := Ideal) x0 x2 x3) (val_main_v94 (F := Ideal) x1 x2 x5) x4 x6 p q := by
  have e4 : idx_main_v49 (idx_main_v50 (ix2 p q)) = ix1 q :=
    funext fun a => Fin.ext (by match a with | ⟨0, _⟩ => rfl)
  have e6 : idx_main_v95 (idx_main_v96 (ix2 p q)) = ix1 q :=
    funext fun a => Fin.ext (by match a with | ⟨0, _⟩ => rfl)
  rw [val_main_v99_apply, val_main_v52_apply, val_main_v51_apply, val_main_v50_apply, val_main_v49_apply,
    val_main_call1_v0_apply, val_main_call1_cst_apply, val_main_v98_apply, val_main_v97_apply, val_main_v96_apply,
    val_main_v95_apply, val_main_call3_v0_apply, val_main_call3_cst_apply, e4, e6]
  rfl

/-- Row p with column k put back on the reduced axis is the entry (p, k). -/
theorem lift_row (h : S50000x128.Reduces [1] S50000) (p : Fin 50000) (k : Fin (S50000x128.size 1)) :
    h.lift (ix1 p) k = ix2 p (⟨k.val, k.isLt⟩ : Fin 128) := by
  funext c
  apply Fin.ext
  match c with
  | ⟨0, _⟩ => rfl
  | ⟨1, _⟩ => rfl

/-- The row maximum the reference subtracts is the fold of max over the row from minus infinity; the extra maximum with
    minus infinity changes nothing. -/
theorem rowmax_at (p : Fin 50000) :
    val_main_call4_v2 (F := Ideal) x0 x1 x2 x3 x4 x5 x6 (ix1 p)
      = Cert.Spec.rowMax (Cert.Spec.act (val_main_v48 (F := Ideal) x0 x2 x3) (val_main_v94 (F := Ideal) x1 x2 x5) x4 x6 p) := by
  rw [val_main_call4_v2_apply, val_main_call4_v1_apply, val_main_call4_cst_0_apply, Ideal.maximumf_def, Ideal.ofBits_def,
    Cert.Spec.max_negInfW]
  have h : S50000x128.Reduces [1] S50000 := by decide
  have hf : (val_main_v99 (F := Ideal) x0 x1 x2 x3 x4 x5 x6 ∘ h.lift (ix1 p))
      = Cert.Spec.act (val_main_v48 (F := Ideal) x0 x2 x3) (val_main_v94 (F := Ideal) x1 x2 x5) x4 x6 p := by
    funext k
    rw [Function.comp_apply, lift_row h p k]
    exact pre_at x0 x1 x2 x3 x4 x5 x6 p ⟨k.val, k.isLt⟩
  unfold val_main_call4_v0
  rw [Host.reduce_eq_fold_single (f := FloatOps.maximumf) (h := h), hf]
  rfl

/-- The sum the reference takes the logarithm of: over the row, the exponentials of the entries less the row maximum. -/
theorem sumexp_at (p : Fin 50000) :
    val_main_call4_v7 (F := Ideal) x0 x1 x2 x3 x4 x5 x6 (ix1 p)
      = ∑ k : Fin 128, Ideal.exp
          (Cert.Spec.act (val_main_v48 (F := Ideal) x0 x2 x3) (val_main_v94 (F := Ideal) x1 x2 x5) x4 x6 p k
            - Cert.Spec.rowMax (Cert.Spec.act (val_main_v48 (F := Ideal) x0 x2 x3) (val_main_v94 (F := Ideal) x1 x2 x5) x4 x6 p)) := by
  rw [val_main_call4_v7_apply, val_main_call4_cst_1_apply, Ideal.ofBits_def, Ideal.ofBits_zero_f32, zero_add]
  refine Finset.sum_congr rfl fun k _ => ?_
  have e7 : idx_main_call4_v7 (ix1 p) k = ix2 p k :=
    funext fun a => Fin.ext (by match a with | ⟨0, _⟩ => rfl | ⟨1, _⟩ => rfl)
  have e34 : idx_main_call4_v3 (idx_main_call4_v4 (ix2 p k)) = ix1 p :=
    funext fun a => Fin.ext (by match a with | ⟨0, _⟩ => rfl)
  rw [e7, val_main_call4_v6_apply, val_main_call4_v5_apply, val_main_call4_v4_apply, val_main_call4_v3_apply, e34, rowmax_at,
    pre_at, Ideal.hostUnary_exp_def, Ideal.subf_def]

/-- The reference's result at the entry (p, q) is the log-softmax of row p at q. -/
theorem tail_at (p : Fin 50000) (q : Fin 128) :
    val_main_v100 (F := Ideal) x0 x1 x2 x3 x4 x5 x6 (ix2 p q)
      = Cert.Spec.logSoftmaxAt
          (Cert.Spec.act (val_main_v48 (F := Ideal) x0 x2 x3) (val_main_v94 (F := Ideal) x1 x2 x5) x4 x6 p) q := by
  have e34 : idx_main_call4_v3 (idx_main_call4_v4 (ix2 p q)) = ix1 p :=
    funext fun a => Fin.ext (by match a with | ⟨0, _⟩ => rfl)
  have e810 : idx_main_call4_v8 (idx_main_call4_v10 (ix2 p q)) = ix1 p :=
    funext fun a => Fin.ext (by match a with | ⟨0, _⟩ => rfl)
  rw [val_main_v100_apply, val_main_call4_v5_apply, val_main_call4_v4_apply, val_main_call4_v3_apply, e34, rowmax_at, pre_at,
    val_main_call4_v10_apply, val_main_call4_v9_apply, val_main_call4_v8_apply, e810, sumexp_at,
    Ideal.hostUnary_log_def, Ideal.subf_def, Ideal.subf_def]
  rfl

end Tail

/-! ## The reference's value -/

/-- The reference's result is the row-wise log-softmax of relu (push (x0 · x3) + x4) + relu (push (x1 · x5) + x6). -/
theorem ref_value (x0 : (⟨S50000x512, .f32⟩ : BufTy).Contents (Elt Ideal)) (x1 : (⟨S50000x256, .f32⟩ : BufTy).Contents (Elt Ideal))
    (x2 : (⟨S2x800000, .i32⟩ : BufTy).Contents (Elt Ideal)) (x3 : (⟨S512x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal)) :
    val_main_v100 (F := Ideal) x0 x1 x2 x3 x4 x5 x6
      = Cert.Spec.fuse (Cert.Edges.push (F := Ideal) (Cert.Spec.proj (d := 512) x0 x3) x2)
          (Cert.Edges.push (F := Ideal) (Cert.Spec.proj (d := 256) x1 x5) x2) x4 x6 := by
  funext i
  obtain ⟨p, q, rfl⟩ : ∃ (p : Fin 50000) (q : Fin 128), i = ix2 p q := ⟨i 0, i 1, eq_ix2 i⟩
  rw [tail_at, edges_first, edges_second, proj_first, proj_second]
  rfl

end Cert.RefValue

end
-- ==== Proof.lean ====
/-
  A two-modality graph convolution with a row-wise log-softmax, against its jnp reference: equivalence over the
  extended reals.

  Both programs compute, for 50000 nodes and 128 output features,
      logsoftmax_row ( relu (push (x₁ · W₁) + b₁) + relu (push (x₂ · W₂) + b₂) ),
  where `push` gathers rows at the edges' sources, scales them by the symmetric inverse-square-root degree weights
  and adds them up at the destinations (a self-loop appended for every node). The kernel program computes the two
  dense products in one kernel region (ten row blocks, each block a product on the matrix unit into a zero
  accumulator, the operands first changed to a narrower float format), runs the edge stage as host operations,
  and fuses bias, relu, add and log-softmax in a second kernel region (ten row blocks, a lane maximum and a lane
  sum per row). The reference computes the same on the host, the degree chain once per modality.

  Over the extended reals a change of format is the identity, a product into a zero accumulator is the plain sum
  of products, and a sum or maximum does not depend on order or tiling; the edge stage is literally the same
  function on both sides and is never opened (`Cert.Edges.push`). So both results are `Cert.Spec.fuse` of the same
  arguments: `Cert.KernelValue.kernel_value` on the kernel side, `Cert.RefStages.result_eq` (the run read back) and
  `Cert.RefValue.ref_value` on the reference side.
  No law that needs finiteness is used, so the precondition is never opened. The frames of the two kernel
  programs are the generated ones; the reference's frame is its run with the result dropped; the ideal pass
  rewrote nothing, so `preserves` is trivial.
-/
import proofs.«169199_j36335423324414_1_alg».proof.Defs
import proofs.«169199_j36335423324414_1_alg».proof.Proof.Gen.Kernel
import proofs.«169199_j36335423324414_1_alg».proof.Proof.Gen.Kernel.Frame
import proofs.«169199_j36335423324414_1_alg».proof.Proof.Gen.KernelIdeal
import proofs.«169199_j36335423324414_1_alg».proof.Proof.Gen.KernelIdeal.Frame
import proofs.«169199_j36335423324414_1_alg».proof.Proof.Gen.ReferenceIdeal
import proofs.«169199_j36335423324414_1_alg».proof.Proof.Gen.Pre_finite_inputs
import proofs.«169199_j36335423324414_1_alg».proof.Proof.KernelRun
import proofs.«169199_j36335423324414_1_alg».proof.Proof.KernelValue
import proofs.«169199_j36335423324414_1_alg».proof.Proof.RefStages
import proofs.«169199_j36335423324414_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- From memories that agree on the arguments both programs end with the same array: the fused tail of the two
    pushed dense products of the arguments. -/
theorem algebraic : Cert.algebraic_KernelIdeal_ReferenceIdeal := by
  intro m ρ m' ρ' _ hagree
  refine ⟨fun c => Cert.KernelIdeal.Gen.W6 m ρ c (Proc.devRef .tc Cert.KernelIdeal.main_v66),
    Cert.KernelIdeal.RunV.run_value (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6⟩ := hagree c
  refine (Cert.RefStages.result_eq m' c).trans ?_
  rw [Cert.RefValue.ref_value, h0, h1, h2, h3, h4, h5, h6]
  exact (Cert.KernelValue.kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
